-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S1024x2048 : Shape := ⟨2, ![1024, 2048]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S32x512x1024 .f32) (main_arg1 : FVec F S32x512x1024 .f32) (main_arg2 : IVec S32 32) (main_arg3 : FVec F S1024x2048 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S32x512x1024 : Shape := ⟨3, ![32, 512, 1024]⟩
abbrev S32 : Shape := ⟨1, ![32]⟩
abbrev S1024x2048 : Shape := ⟨2, ![1024, 2048]⟩
abbrev S1024x1024 : Shape := ⟨2, ![1024, 1024]⟩
abbrev S512x32768 : Shape := ⟨2, ![512, 32768]⟩
abbrev S512x16384 : Shape := ⟨2, ![512, 16384]⟩
abbrev S1x512x1024 : Shape := ⟨3, ![1, 512, 1024]⟩
abbrev S512x1024 : Shape := ⟨2, ![512, 1024]⟩
abbrev S512x512 : Shape := ⟨2, ![512, 512]⟩
abbrev S1 : Shape := ⟨1, ![1]⟩
abbrev S512 : Shape := ⟨1, ![512]⟩
abbrev S512x1 : Shape := ⟨2, ![512, 1]⟩
abbrev S512x32x1024 : Shape := ⟨3, ![512, 32, 1024]⟩
abbrev S512x32x512 : Shape := ⟨3, ![512, 32, 512]⟩

abbrev nBuf : Space → Nat
  | .hbm => 12
  | .vmem => 10
  | .smem => 1
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S1024x2048, .f32⟩
  | .hbm, ⟨3, _⟩ => ⟨S1024x2048, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S512x32768, .f32⟩
  | .hbm, ⟨9, _⟩ => ⟨S512x16384, .f32⟩
  | .hbm, ⟨10, _⟩ => ⟨S512x32x1024, .f32⟩
  | .hbm, ⟨11, _⟩ => ⟨S512x32x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .smem, ⟨0, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  slices_S1024x2048_S1024x1024_0_0 : S1024x2048.Slices ![0, 0] S1024x1024
  transposes_S1024x1024_S1024x1024_1_0 : S1024x1024.Transposes [1, 0] S1024x1024
  slices_S1024x2048_S1024x1024_0_1024 : S1024x2048.Slices ![0, 1024] S1024x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x32768_S512x32x1024 : S512x32768.ShapeCasts S512x32x1024
  shapeCasts_S512x16384_S512x32x512 : S512x16384.ShapeCasts S512x32x512
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x32768.size a
  hwx0_4 : ∀ i : grid0.Coords, EltTy.bits .f32 = 32 ∨ (Rect.block (s := S512x32768) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x16384.size a
  hwx0_5 : ∀ i : grid0.Coords, EltTy.bits .f32 = 32 ∨ (Rect.block (s := S512x16384) S512x512.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x512x1024.size reads0_1 false false 2 stage0_1 sem0_1 nbuf0_1 hstage0_1

abbrev spec0_2 : Pipeline.WinSpec sig grid0.rank :=
  Pipeline.WinSpec.ofSpec (Memref.whole main_v2) S1024x1024.size reads0_2 false true 1 stage0_2 sem0_2 nbuf0_2 hstage0_2

abbrev spec0_3 : Pipeline.WinSpec sig grid0.rank :=
  Pipeline.WinSpec.ofSpec (Memref.whole main_v4) S1024x1024.size reads0_3 false true 1 stage0_3 sem0_3 nbuf0_3 hstage0_3

abbrev spec0_4 : Pipeline.WinSpec sig grid0.rank :=
  Pipeline.WinSpec.ofSpec (Memref.whole main_v5_0) S512x1024.size reads0_4 true false 2 stage0_4 sem0_4 nbuf0_4 hstage0_4

abbrev spec0_5 : Pipeline.WinSpec sig grid0.rank :=
  Pipeline.WinSpec.ofSpec (Memref.whole main_v5_1) S512x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S1024x2048 : Shape := ⟨2, ![1024, 2048]⟩
abbrev S32x512x512 : Shape := ⟨3, ![32, 512, 512]⟩
abbrev S512 : Shape := ⟨1, ![512]⟩
abbrev S1x512 : Shape := ⟨2, ![1, 512]⟩
abbrev S32x1 : Shape := ⟨2, ![32, 1]⟩
abbrev S32x512 : Shape := ⟨2, ![32, 512]⟩
abbrev S32x1x512 : Shape := ⟨3, ![32, 1, 512]⟩
abbrev S_ : Shape := ⟨0, ![]⟩
abbrev S32x512x1 : Shape := ⟨3, ![32, 512, 1]⟩
abbrev S32x512x2048 : Shape := ⟨3, ![32, 512, 2048]⟩
abbrev S512x32x1024 : Shape := ⟨3, ![512, 32, 1024]⟩
abbrev S512x32x512 : Shape := ⟨3, ![512, 32, 512]⟩

abbrev nBuf : Space → Nat
  | .hbm => 37
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32, .i32⟩
  | .hbm, ⟨3, _⟩ => ⟨S1024x2048, .f32⟩
  | .hbm, ⟨4, _⟩ => ⟨S32x512x512, .f32⟩
  | .hbm, ⟨5, _⟩ => ⟨S512, .i32⟩
  | .hbm, ⟨6, _⟩ => ⟨S1x512, .i32⟩
  | .hbm, ⟨7, _⟩ => ⟨S32x1, .i32⟩
  | .hbm, ⟨8, _⟩ => ⟨S32x512, .i32⟩
  | .hbm, ⟨9, _⟩ => ⟨S32x512, .i32⟩
  | .hbm, ⟨10, _⟩ => ⟨S32x512, .i1⟩
  | .hbm, ⟨11, _⟩ => ⟨S32x1x512, .i1⟩
  | .hbm, ⟨12, _⟩ => ⟨S_, .f32⟩
  | .hbm, ⟨13, _⟩ => ⟨S_, .f32⟩
  | .hbm, ⟨14, _⟩ => ⟨S32x512x512, .i1⟩
  | .hbm, ⟨15, _⟩ => ⟨S32x512x512, .f32⟩
  | .hbm, ⟨16, _⟩ => ⟨S32x512x512, .f32⟩
  | .hbm, ⟨17, _⟩ => ⟨S_, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x512x1, .f32⟩
  | .hbm, ⟨23, _⟩ => ⟨S32x512x512, .f32⟩
  | .hbm, ⟨24, _⟩ => ⟨S32x512x512, .f32⟩
  | .hbm, ⟨25, _⟩ => ⟨S32x512x512, .f32⟩
  | .hbm, ⟨26, _⟩ => ⟨S_, .f32⟩
  | .hbm, ⟨27, _⟩ => ⟨S32x512, .f32⟩
  | .hbm, ⟨28, _⟩ => ⟨S32x512x1, .f32⟩
  | .hbm, ⟨29, _⟩ => ⟨S32x512x512, .f32⟩
  | .hbm, ⟨30, _⟩ => ⟨S32x512x512, .f32⟩
  | .hbm, ⟨31, _⟩ => ⟨S32x512x1024, .f32⟩
  | .hbm, ⟨32, _⟩ => ⟨S32x512x2048, .f32⟩
  | .hbm, ⟨33, _⟩ => ⟨S32x512x1024, .f32⟩
  | .hbm, ⟨34, _⟩ => ⟨S32x512x1024, .f32⟩
  | .hbm, ⟨35, _⟩ => ⟨S512x32x1024, .f32⟩
  | .hbm, ⟨36, _⟩ => ⟨S512x32x512, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  concatenates_S32x512x1024_S32x512x1024_S32x512x2048_d2 : Shape.Concatenates [S32x512x1024, S32x512x1024] S32x512x2048 2
  transposes_S32x512x1024_S512x32x1024_1_0_2 : S32x512x1024.Transposes [1, 0, 2] S512x32x1024
  transposes_S32x512x512_S512x32x512_1_0_2 : S32x512x512.Transposes [1, 0, 2] S512x32x512
  dot_S32x512x1024_S32x512x1024_S32x512x512_2_2_1_1_0_0_wf : DotDims.WF S32x512x1024 S32x512x1024 S32x512x512 [2] [2] [1] [1] [0] [0]
  dot_S32x512x512_S32x512x1024_S32x512x1024_2_1_1_2_0_0_wf : DotDims.WF S32x512x512 S32x512x1024 S32x512x1024 [2] [1] [1] [2] [0] [0]
  dot_S32x512x2048_S1024x2048_S32x512x1024_2_1_01_0_n_n_wf : DotDims.WF S32x512x2048 S1024x2048 S32x512x1024 [2] [1] [0, 1] [0] [] []

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf
def dot_S32x512x2048_S1024x2048_S32x512x1024_2_1_01_0_n_n : DotDims S32x512x2048 S1024x2048 S32x512x1024 where
  lhsContracting := [2]
  rhsContracting := [1]
  lhsNonContracting := [0, 1]
  rhsNonContracting := [0]
  lhsBatch := []
  rhsBatch := []
  wf := dot_S32x512x2048_S1024x2048_S32x512x1024_2_1_01_0_n_n_wf

class Facts : Prop extends Facts₀ where

variable [Facts]
-- ==== Proof.Spec.lean ====
/-
  Dot-product attention over one batch, and over all of them, as functions of coordinates on the extended reals.

  For one batch: queries `x` and keys `mm` are 512 rows of 1024 features. The score of query `t` against key `s` is the
  inner product of the two rows. Keys at or past the batch's length (a signed comparison of the key's position with the
  length word) score `⊥`. Each row of masked scores is shifted by its maximum, exponentiated, and divided by the sum of
  the row: the attention weights. The context of query `t` is the weighted sum of the key rows. The output mixes the
  context and the query through two square projections and a `tanh`.

  For the whole input: batch `b` uses rows `b` of the two rank-three inputs and the `b`-th length; the two projections
  are the left and the right half of the columns of `W`, read transposed. Results are laid out (query, batch, feature).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- One batch's queries, or its keys: 512 rows of 1024 features. -/
abbrev Rows := Fin 512 → Fin 1024 → EReal
/-- A square projection, indexed (input feature, output feature). -/
abbrev Proj := Fin 1024 → Fin 1024 → EReal

section OneBatch

variable (len : BitVec 32) (x mm : Rows) (wc wx : Proj)

/-- The inner product of query row `t` and key row `s`. -/
def score (t s : Fin 512) : EReal := ∑ d : Fin 1024, x t d * mm s d

/-- The score where key `s` lies before the length, `⊥` elsewhere. -/
def masked (t s : Fin 512) : EReal :=
  Scalar.select (IntOp.cmpi .slt (BitVec.ofNat 32 s.val) len) (score x mm t s) ⊥

/-- The largest masked score of row `t` (`⊥` if there is none above it). -/
def rowmax (t : Fin 512) : EReal := (Finset.univ : Finset (Fin 512)).fold max ⊥ (fun s => masked len x mm t s)

/-- The exponential of the masked score less the row's maximum. -/
def expo (t s : Fin 512) : EReal := Ideal.exp (masked len x mm t s - rowmax len x mm t)

/-- The sum of a row of exponentials. -/
def denom (t : Fin 512) : EReal := ∑ s : Fin 512, expo len x mm t s

/-- The attention weight of key `s` for query `t`. -/
def weight (t s : Fin 512) : EReal := Ideal.div (expo len x mm t s) (denom len x mm t)

/-- The context of query `t`: the key rows summed with the weights. -/
def context (t : Fin 512) (d : Fin 1024) : EReal := ∑ s : Fin 512, weight len x mm t s * mm s d

/-- The output row: `tanh` of the context through `wc` plus the query through `wx`. -/
def mixed (t : Fin 512) (j : Fin 1024) : EReal :=
  Ideal.tanh ((∑ k : Fin 1024, context len x mm t k * wc k j) + ∑ k : Fin 1024, x t k * wx k j)

end OneBatch

section AllBatches

variable (X M : (⟨3, ![32, 512, 1024]⟩ : Shape).Idx → EReal) (Ln : (⟨1, ![32]⟩ : Shape).Idx → BitVec 32)
  (W : (⟨2, ![1024, 2048]⟩ : Shape).Idx → EReal)

/-- Batch `b` of a rank-three input. -/
def rowsOf (A : (⟨3, ![32, 512, 1024]⟩ : Shape).Idx → EReal) (b : Fin 32) : Rows := fun t d => A (ix3 b t d)

/-- The left half of `W`'s columns, transposed: entry (k, j) is `W[j, k]`. -/
def projLo : Proj := fun k j => W (ix2 j (Fin.castAdd 1024 k))

/-- The right half of `W`'s columns, transposed: entry (k, j) is `W[j, 1024 + k]`. -/
def projHi : Proj := fun k j => W (ix2 j (Fin.natAdd 1024 k))

/-- The mixed output, laid out (query, batch, feature). -/
def attnOut : (⟨3, ![512, 32, 1024]⟩ : Shape).Idx → EReal := fun i =>
  mixed (Ln (ix1 (i 1))) (rowsOf X (i 1)) (rowsOf M (i 1)) (projLo W) (projHi W) (i 0) (i 2)

/-- The attention weights, laid out (query, batch, key). -/
def alignOut : (⟨3, ![512, 32, 512]⟩ : Shape).Idx → EReal := fun i =>
  weight (Ln (ix1 (i 1))) (rowsOf X (i 1)) (rowsOf M (i 1)) (i 0) (i 2)

theorem attnOut_ix3 (t : Fin 512) (b : Fin 32) (j : Fin 1024) :
    attnOut X M Ln W (ix3 t b j) = mixed (Ln (ix1 b)) (rowsOf X b) (rowsOf M b) (projLo W) (projHi W) t j := rfl

theorem alignOut_ix3 (t : Fin 512) (b : Fin 32) (s : Fin 512) :
    alignOut X M Ln (ix3 t b s) = weight (Ln (ix1 b)) (rowsOf X b) (rowsOf M b) t s := rfl

end AllBatches

/-- The pattern of `-∞` denotes `⊥`. -/
theorem ofBits_neg_inf : Ideal.ofBits .f32 0xFF800000#32 = ⊥ := by simp [Ideal.ofBits, Ideal.ieee]

/-- A sum over 2048 positions is the sum over the first 1024 plus the sum over the last 1024. -/
theorem sum_halves (f : Fin 2048 → EReal) :
    ∑ k : Fin 2048, f k = (∑ k : Fin 1024, f (Fin.castAdd 1024 k)) + ∑ k : Fin 1024, f (Fin.natAdd 1024 k) :=
  Fin.sum_univ_add (a := 1024) (b := 1024) f

end Cert.Attn

end
-- ==== Proof.RefSide.lean ====
/-
  The reference, stage by stage, computes the specification.

  Read at an index, every stage of the reference is the function of `Spec.lean` with the same name: the inner products
  are the scores; the comparison of a broadcast position with a broadcast length, selected against `-∞`, is the masked
  score; the maximum over the keys (a fold of `max` from `-∞`, then once more against `-∞`, which changes nothing) is the
  row's maximum; and so on to the weights and the context. The last product contracts the 2048 columns of the context
  joined with the query: the first 1024 terms are the context against the left half of `W`'s columns, the last 1024 the
  query against the right half, so the one sum is the two sums of the specification. The two results are the
  specification's arrays with the first two axes exchanged.
-/
import proofs.«424579_j5471788335126_2_alg».proof.Proof.RefRead
import proofs.«424579_j5471788335126_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.Attn.Ref

open Cert.ReferenceIdeal Cert.ReferenceIdeal.Gen Cert.ReferenceIdeal.ReadP Idealize.ShloMosaic Idealize.ShloMosaic.ValueIdx Cert.Attn

variable (x0 x1 : (⟨S32x512x1024, .f32⟩ : BufTy).Contents (Elt Ideal)) (x2 : (⟨S32, .i32⟩ : BufTy).Contents (Elt Ideal))
  (x3 : (⟨S1024x2048, .f32⟩ : BufTy).Contents (Elt Ideal))

/-! ## Where each stage reads its operands -/

theorem lidx0 (b : Fin 32) (t s : Fin 512) (k : Fin 1024) : lidx_main_v0 (ix3 b t s) k = ix3 b t k :=
  funext fun a => Fin.ext (by match a with | ⟨0, _⟩ => rfl | ⟨1, _⟩ => rfl | ⟨2, _⟩ => rfl)
theorem ridx0 (b : Fin 32) (t s : Fin 512) (k : Fin 1024) : ridx_main_v0 (ix3 b t s) k = ix3 b s k :=
  funext fun a => Fin.ext (by match a with | ⟨0, _⟩ => rfl | ⟨1, _⟩ => rfl | ⟨2, _⟩ => rfl)
theorem idx1213 (b : Fin 32) (t s : Fin 512) : idx_main_v12 (idx_main_v13 (ix3 b t s)) = ix2 b t :=
  funext fun a => Fin.ext (by match a with | ⟨0, _⟩ => rfl | ⟨1, _⟩ => rfl)
theorem idx16 (b : Fin 32) (t k : Fin 512) : idx_main_v16 (ix2 b t) k = ix3 b t k :=
  funext fun a => Fin.ext (by match a with | ⟨0, _⟩ => rfl | ⟨1, _⟩ => rfl | ⟨2, _⟩ => rfl)
theorem idx1718 (b : Fin 32) (t s : Fin 512) : idx_main_v17 (idx_main_v18 (ix3 b t s)) = ix2 b t :=
  funext fun a => Fin.ext (by match a with | ⟨0, _⟩ => rfl | ⟨1, _⟩ => rfl)
theorem lidx20 (b : Fin 32) (t : Fin 512) (d : Fin 1024) (k : Fin 512) : lidx_main_v20 (ix3 b t d) k = ix3 b t k :=
  funext fun a => Fin.ext (by match a with | ⟨0, _⟩ => rfl | ⟨1, _⟩ => rfl | ⟨2, _⟩ => rfl)
theorem ridx20 (b : Fin 32) (t : Fin 512) (d : Fin 1024) (k : Fin 512) : ridx_main_v20 (ix3 b t d) k = ix3 b k d :=
  funext fun a => Fin.ext (by match a with | ⟨0, _⟩ => rfl | ⟨1, _⟩ => rfl | ⟨2, _⟩ => rfl)
theorem lidx22 (b : Fin 32) (t : Fin 512) (j : Fin 1024) (k : Fin 2048) : lidx_main_v22 (ix3 b t j) k = ix3 b t k :=
  funext fun a => Fin.ext (by match a with | ⟨0, _⟩ => rfl | ⟨1, _⟩ => rfl | ⟨2, _⟩ => rfl)
theorem ridx22 (b : Fin 32) (t : Fin 512) (j : Fin 1024) (k : Fin 2048) : ridx_main_v22 (ix3 b t j) k = ix2 j k :=
  funext fun a => Fin.ext (by match a with | ⟨0, _⟩ => rfl | ⟨1, _⟩ => rfl)
theorem idx24 (t : Fin 512) (b : Fin 32) (j : Fin 1024) : idx_main_v24 (ix3 t b j) = ix3 b t j :=
  funext fun a => Fin.ext (by match a with | ⟨0, _⟩ => rfl | ⟨1, _⟩ => rfl | ⟨2, _⟩ => rfl)
theorem idx25 (t : Fin 512) (b : Fin 32) (s : Fin 512) : idx_main_v25 (ix3 t b s) = ix3 b t s :=
  funext fun a => Fin.ext (by match a with | ⟨0, _⟩ => rfl | ⟨1, _⟩ => rfl | ⟨2, _⟩ => rfl)

/-! ## The stages -/

/-- The first product: the score of query `t` against key `s` in batch `b`. -/
theorem scores_apply (b : Fin 32) (t s : Fin 512) :
    val_main_v0 (F := Ideal) x0 x1 (ix3 b t s) = score (rowsOf x0 b) (rowsOf x1 b) t s := by
  rw [val_main_v0_apply]
  show _ = ∑ d : Fin 1024, rowsOf x0 b t d * rowsOf x1 b s d
  exact Finset.sum_congr rfl fun k _ => by rw [lidx0, ridx0]; rfl

/-- The mask, broadcast over the queries: is position `s` before batch `b`'s length? -/
theorem mask_apply (b : Fin 32) (t s : Fin 512) :
    val_main_call0_v1 (F := Ideal) x2 (ix3 b t s) = IntOp.cmpi .slt (BitVec.ofNat 32 s.val) (x2 (ix1 b)) := by
  rw [val_main_call0_v1_apply, val_main_v7_apply, val_main_v6_apply, val_main_v4_apply, val_main_v2_apply, val_main_v1_apply,
    val_main_v5_apply, val_main_v3_apply]
  exact congrArg (fun z => IntOp.cmpi .slt (BitVec.ofNat 32 s.val) (x2 z))
    (funext fun a => Fin.ext (by match a with | ⟨0, _⟩ => rfl))

/-- The selected scores. -/
theorem masked_apply (b : Fin 32) (t s : Fin 512) :
    val_main_v8 (F := Ideal) x0 x1 x2 (ix3 b t s) = masked (x2 (ix1 b)) (rowsOf x0 b) (rowsOf x1 b) t s := by
  rw [val_main_v8_apply, mask_apply, scores_apply, val_main_call0_v2_apply, val_main_call0_v0_apply, val_main_cst_apply]
  show Scalar.select _ _ (Ideal.ofBits .f32 0xFF800000#32) = _
  rw [ofBits_neg_inf]
  rfl

/-- The reduction over the keys drops the last of three axes. -/
theorem hred : S32x512x512.Reduces [2] S32x512 := by decide

theorem lift_eq (b : Fin 32) (t k : Fin 512) : hred.lift (ix2 b t) k = ix3 b t k :=
  funext fun a => Fin.ext (by match a with | ⟨0, _⟩ => rfl | ⟨1, _⟩ => rfl | ⟨2, _⟩ => rfl)

/-- The row's maximum: the fold of `max` from `-∞` over the keys; the further `max` with `-∞` is the identity. -/
theorem rowmax_apply (b : Fin 32) (t : Fin 512) :
    val_main_v11 (F := Ideal) x0 x1 x2 (ix2 b t) = rowmax (x2 (ix1 b)) (rowsOf x0 b) (rowsOf x1 b) t := by
  rw [val_main_v11_apply, val_main_v10_apply, val_main_cst_1_apply]
  unfold val_main_v9
  rw [Host.reduce_eq_fold_single FloatOps.maximumf _ _ reducesTo_S32x512x512_S32x512_d2 hred h_S_]
  have e : (val_main_v8 (F := Ideal) x0 x1 x2 ∘ hred.lift (ix2 b t))
      = fun s : Fin 512 => masked (x2 (ix1 b)) (rowsOf x0 b) (rowsOf x1 b) t s :=
    funext fun k => (congrArg (val_main_v8 (F := Ideal) x0 x1 x2) (lift_eq b t k)).trans (masked_apply x0 x1 x2 b t k)
  rw [e, val_main_cst_0_apply]
  show max (Ideal.ofBits .f32 0xFF800000#32) (Finset.univ.fold max (Ideal.ofBits .f32 0xFF800000#32) _) = _
  rw [ofBits_neg_inf]
  exact max_eq_right bot_le

/-- The exponentials. -/
theorem expo_apply (b : Fin 32) (t s : Fin 512) :
    val_main_v15 (F := Ideal) x0 x1 x2 (ix3 b t s) = expo (x2 (ix1 b)) (rowsOf x0 b) (rowsOf x1 b) t s := by
  rw [val_main_v15_apply, val_main_v14_apply, masked_apply, val_main_v13_apply, val_main_v12_apply, idx1213, rowmax_apply]
  rfl

/-- Their sum along a row (from zero). -/
theorem denom_apply (b : Fin 32) (t : Fin 512) :
    val_main_v16 (F := Ideal) x0 x1 x2 (ix2 b t) = denom (x2 (ix1 b)) (rowsOf x0 b) (rowsOf x1 b) t := by
  rw [val_main_v16_apply, val_main_cst_2_apply]
  show Ideal.ofBits .f32 0x00000000#32 + _ = ∑ s : Fin 512, expo (x2 (ix1 b)) (rowsOf x0 b) (rowsOf x1 b) t s
  rw [Ideal.ofBits_zero_f32, zero_add]
  exact Finset.sum_congr rfl fun k _ => by rw [idx16, expo_apply]

/-- The weights. -/
theorem weight_apply (b : Fin 32) (t s : Fin 512) :
    val_main_v19 (F := Ideal) x0 x1 x2 (ix3 b t s) = weight (x2 (ix1 b)) (rowsOf x0 b) (rowsOf x1 b) t s := by
  rw [val_main_v19_apply, expo_apply, val_main_v18_apply, val_main_v17_apply, idx1718, denom_apply]
  rfl

/-- The second product: the context. -/
theorem context_apply (b : Fin 32) (t : Fin 512) (d : Fin 1024) :
    val_main_v20 (F := Ideal) x0 x1 x2 (ix3 b t d) = context (x2 (ix1 b)) (rowsOf x0 b) (rowsOf x1 b) t d := by
  rw [val_main_v20_apply]
  show _ = ∑ s : Fin 512, weight (x2 (ix1 b)) (rowsOf x0 b) (rowsOf x1 b) t s * rowsOf x1 b s d
  exact Finset.sum_congr rfl fun k _ => by rw [lidx20, ridx20, weight_apply]; rfl

/-- The joined array reads the context in its first 1024 columns, -/
theorem cat_left (b : Fin 32) (t : Fin 512) (k : Fin 1024) :
    val_main_v21 (F := Ideal) x0 x1 x2 (ix3 b t (Fin.castAdd 1024 k)) = val_main_v20 (F := Ideal) x0 x1 x2 (ix3 b t k) := by
  unfold val_main_v21
  exact concatenate_pair_apply_left (t := S32x512x2048) 2 _ _ concatenates_S32x512x1024_S32x512x1024_S32x512x2048_d2 _ rfl
    (ix3 b t k) (fun a => by match a with | ⟨0, _⟩ => rfl | ⟨1, _⟩ => rfl | ⟨2, _⟩ => rfl)

/-- and the query in its last 1024. -/
theorem cat_right (b : Fin 32) (t : Fin 512) (k : Fin 1024) :
    val_main_v21 (F := Ideal) x0 x1 x2 (ix3 b t (Fin.natAdd 1024 k)) = x0 (ix3 b t k) := by
  unfold val_main_v21
  exact concatenate_pair_apply_right (t := S32x512x2048) 2 _ _ concatenates_S32x512x1024_S32x512x1024_S32x512x2048_d2 _ rfl rfl
    (ix3 b t k)
    (fun a ha => by
      match a, ha with
      | ⟨0, _⟩, _ => rfl
      | ⟨1, _⟩, _ => rfl
      | ⟨2, _⟩, h => exact absurd rfl h)
    (by show k.val + 1024 = 1024 + k.val; omega)

/-- The first result: one sum over the 2048 joined columns is the specification's two sums over 1024. -/
theorem out0_apply (t : Fin 512) (b : Fin 32) (j : Fin 1024) :
    val_main_v24 (F := Ideal) x0 x1 x2 x3 (ix3 t b j) = attnOut x0 x1 x2 x3 (ix3 t b j) := by
  rw [val_main_v24_apply, idx24, val_main_v23_apply, val_main_v22_apply, sum_halves, attnOut_ix3]
  show Ideal.tanh (_ + _) = Ideal.tanh ((∑ k : Fin 1024, context (x2 (ix1 b)) (rowsOf x0 b) (rowsOf x1 b) t k * projLo x3 k j)
    + ∑ k : Fin 1024, rowsOf x0 b t k * projHi x3 k j)
  refine congrArg Ideal.tanh (congrArg₂ (· + ·) (Finset.sum_congr rfl fun k _ => ?_) (Finset.sum_congr rfl fun k _ => ?_))
  · rw [lidx22, ridx22, cat_left, context_apply]; rfl
  · rw [lidx22, ridx22, cat_right]; rfl

/-- The second result: the weights. -/
theorem out1_apply (t : Fin 512) (b : Fin 32) (s : Fin 512) :
    val_main_v25 (F := Ideal) x0 x1 x2 (ix3 t b s) = alignOut x0 x1 x2 (ix3 t b s) := by
  rw [val_main_v25_apply, idx25, weight_apply]; rfl

theorem out0_eq : val_main_v24 (F := Ideal) x0 x1 x2 x3 = attnOut x0 x1 x2 x3 := funext fun i => by
  obtain ⟨t, b, j, rfl⟩ : ∃ (t : Fin 512) (b : Fin 32) (j : Fin 1024), i = ix3 t b j := ⟨i 0, i 1, i 2, eq_ix3 i⟩
  exact out0_apply x0 x1 x2 x3 t b j

theorem out1_eq : val_main_v25 (F := Ideal) x0 x1 x2 = alignOut x0 x1 x2 := funext fun i => by
  obtain ⟨t, b, s, rfl⟩ : ∃ (t : Fin 512) (b : Fin 32) (s : Fin 512), i = ix3 t b s := ⟨i 0, i 1, i 2, eq_ix3 i⟩
  exact out1_apply x0 x1 x2 t b s

end Cert.Attn.Ref

end
-- ==== Proof.KerPieces.lean ====
/-
  What one run of the body leaves in its two output blocks.

  The body stores each output block whole, once. Read back, the weights' block holds the body's weights of the two
  loaded blocks and of the length word it loaded from the table at its grid coordinate; the output block holds the
  body's mixed value of those and of the two loaded projections. The length word is the table's entry at the batch.
-/
import proofs.«424579_j5471788335126_2_alg».proof.Proof.Gen.KernelIdeal.Frame
import Idealize.ShloMosaic.Lib.Pipeline.Value
import Idealize.ShloMosaic.Lib.ValueIdx

set_option maxRecDepth 16384

noncomputable section

namespace Cert.Attn.KerPieces

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The length word the body loads at grid coordinates `i` from the table's contents `xt0`. -/
def lenWord (c : Dev nD) (xt0 : TbBuf0 (F := F) c tbM0_0) (i : grid0.Coords) : Elt F .i32 :=
  View.readAt (Elt F) tbM0_0.view (Rect.unit (s := S32) (k0_off1 i) S1.size (k0_off1_inb i)).toLoadRect xt0
    (Shape.Idx.first (numel1_S1.symm ▸ Nat.one_pos))

/-- The weights' block after the body. -/
theorem out5_eq (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x512 .f32) (harg7 : arg7.IsWhole)
    (x0 : Vec F S1x512x1024 .f32) (x1 : Vec F S1x512x1024 .f32) (x2 : Vec F S1024x1024 .bf16) (x3 : Vec F S1024x1024 .bf16) (xt0 : TbBuf0 (F := F) c tbM0_0) :
    out0_A_5 c i arg2 harg2 arg3 harg3 arg4 harg4 arg5 harg5 arg6 harg6 arg7 harg7 x0 x1 x2 x3 xt0 = k0_pay3 (lenWord c xt0 i) x0 x1 := by
  unfold out0_A_5
  rw [View.read_writes_eq_canon _ _ _ (cover0_A_5 c i arg2 harg2 arg3 harg3 arg4 harg4 arg5 harg5 arg6 harg6 arg7 harg7 x0 x1 x2 x3 xt0)]
  unfold kernelRun0_A
  dsimp only
  sl_unfold_words
  rw [View.canon_unit_zero hz2]
  simp only [View.readAt_eq_ld, harg2.read_unread, harg3.read_unread, View.ld_unit_zero (S := S1x512x1024) hz3]
  rfl

/-- The output block after the body. -/
theorem out4_eq (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x512 .f32) (harg7 : arg7.IsWhole)
    (x0 : Vec F S1x512x1024 .f32) (x1 : Vec F S1x512x1024 .f32) (x2 : Vec F S1024x1024 .bf16) (x3 : Vec F S1024x1024 .bf16) (xt0 : TbBuf0 (F := F) c tbM0_0) :
    out0_A_4 c i arg2 harg2 arg3 harg3 arg4 harg4 arg5 harg5 arg6 harg6 arg7 harg7 x0 x1 x2 x3 xt0 = k0_pay4 (lenWord c xt0 i) x0 x1 x2 x3 := by
  unfold out0_A_4
  rw [View.read_writes_eq_canon _ _ _ (cover0_A_4 c i arg2 harg2 arg3 harg3 arg4 harg4 arg5 harg5 arg6 harg6 arg7 harg7 x0 x1 x2 x3 xt0)]
  unfold kernelRun0_A
  dsimp only
  sl_unfold_words
  rw [View.canon_unit_zero hz2]
  simp only [View.readAt_eq_ld, harg2.read_unread, harg3.read_unread, harg4.read_unread, harg5.read_unread,
    View.ld_unit_zero (S := S1x512x1024) hz3, View.ld_unit_zero (S := S1024x1024) hz2]
  rfl

end Cert.Attn.KerPieces

end
-- ==== Proof.LibColumn.lean ====
/-
  A vector laid out as a column and repeated along the rows' second axis (jnp's v[:, None] against an [a, b] array).

  The vector [a] is cast to [a, 1] and broadcast to [a, b]; at (r, c) the result reads the vector at r, whatever c.
-/
import Idealize.ShloMosaic.Lib.Pipeline.Value
import Idealize.ShloMosaic.Lib.ValueIdx

noncomputable section

namespace Cert.Lib.Column

open Idealize.ShloMosaic Idealize.ShloMosaic.ValueIdx

variable {α : Type}

/-- The cast [a] → [a, 1] reads, at (r, 0), the vector at r. -/
theorem shapeCast_col_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The broadcast [a, 1] → [a, b] reads, at (r, c), the column at (r, 0). -/
theorem broadcastTo_col_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r 0) :=
  broadcastTo_apply v h _ _ (fun d => match d with
    | ⟨0, _⟩ => by
      show r.val = if a = 1 then 0 else r.val
      split
      · have := r.isLt; omega
      · rfl
    | ⟨1, _⟩ => by
      show (0 : Fin 1).val = if (1 : ℕ) = 1 then 0 else c.val
      rw [if_pos rfl]; rfl)

/-- The two together: the vector at r. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (c : Fin b) :
    broadcastTo ⟨2, ![a, b]⟩ (shapeCast ⟨2, ![a, 1]⟩ v h1) h2 (ix2 r c) = v (ix1 r) :=
  (broadcastTo_col_apply _ h2 r c).trans (shapeCast_col_apply v h1 r 0)

end Cert.Lib.Column

end
-- ==== Proof.KerPayload.lean ====
/-
  The kernel body's two stored values are the specification of one batch.

  The body loads the query block and the key block (each `[1, 512, 1024]`, read as 512 rows), the length word of its
  batch, and the two square projections. The value it stores in the weights' block is, at `(t, s)`, the specification's
  `weight`; the value it stores in the output block is, at `(t, j)`, the specification's `mixed`. Each matrix product,
  read at an index, is the sum of products over its one contracted axis; a reduction along the keys is a fold or a
  sum over the row; the column forms `[512] → [512, 1] → [512, 512]` read the reduced vector at the row; the named fill
  value denotes `⊥`; a change of float format is the identity.
-/
import proofs.«424579_j5471788335126_2_alg».proof.Proof.Gen.KernelIdeal.Skeleton
import proofs.«424579_j5471788335126_2_alg».proof.Proof.Spec
import proofs.«424579_j5471788335126_2_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.Attn.Ker

open Cert.KernelIdeal Cert.KernelIdeal.Gen Idealize.ShloMosaic Idealize.ShloMosaic.ValueIdx Cert.Attn

/-! ## The three matrix products at an index -/

/-- Queries against keys: both operands contract their second axis. -/
theorem lhs_nt_0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_nt_1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q
theorem rhs_nt_0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_nt_1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

theorem matmul_nt_apply {φ₁ φ₂ : FTy} (prec : Option ContractPrecision) (lhs : FVec Ideal S512x1024 φ₁) (rhs : FVec Ideal S512x1024 φ₂)
    (t s : Fin 512) :
    matmul dot_S512x1024_S512x1024_S512x512_1_1_0_0_n_n prec lhs rhs (constant (F := Ideal) S512x512 .f32 0x00000000#32) (ix2 t s)
      = ∑ k : Fin 1024, lhs (ix2 t k) * rhs (ix2 s k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 t s) ((contrEquiv1 dot_S512x1024_S512x1024_S512x512_1_1_0_0_n_n 1024 rfl rfl).symm k) = ix2 t k := funext fun a => Fin.ext (by
    match a with
    | ⟨0, _⟩ => exact lhs_nt_0 _ _
    | ⟨1, _⟩ => exact (lhs_nt_1 _ _).trans hk)
  have er : dot_S512x1024_S512x1024_S512x512_1_1_0_0_n_n.rhsIdx (ix2 t s) ((contrEquiv1 dot_S512x1024_S512x1024_S512x512_1_1_0_0_n_n 1024 rfl rfl).symm k) = ix2 s k := funext fun a => Fin.ext (by
    match a with
    | ⟨0, _⟩ => exact rhs_nt_0 _ _
    | ⟨1, _⟩ => exact (rhs_nt_1 _ _).trans hk)
  rw [el, er]

/-- Weights against keys: the left operand's second axis against the right operand's first, 512 terms. -/
theorem lhs_w_0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_w_1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem rhs_w_0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem rhs_w_1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem matmul_w_apply {φ₁ φ₂ : FTy} (prec : Option ContractPrecision) (lhs : FVec Ideal S512x512 φ₁) (rhs : FVec Ideal S512x1024 φ₂)
    (t : Fin 512) (d : Fin 1024) :
    matmul dot_S512x512_S512x1024_S512x1024_1_0_0_1_n_n prec lhs rhs (constant (F := Ideal) S512x1024 .f32 0x00000000#32) (ix2 t d)
      = ∑ k : Fin 512, lhs (ix2 t k) * rhs (ix2 k d) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 t d) ((contrEquiv1 dot_S512x512_S512x1024_S512x1024_1_0_0_1_n_n 512 rfl rfl).symm k) = ix2 t k := funext fun a => Fin.ext (by
    match a with
    | ⟨0, _⟩ => exact lhs_w_0 _ _
    | ⟨1, _⟩ => exact (lhs_w_1 _ _).trans hk)
  have er : dot_S512x512_S512x1024_S512x1024_1_0_0_1_n_n.rhsIdx (ix2 t d) ((contrEquiv1 dot_S512x512_S512x1024_S512x1024_1_0_0_1_n_n 512 rfl rfl).symm k) = ix2 k d := funext fun a => Fin.ext (by
    match a with
    | ⟨0, _⟩ => exact (rhs_w_0 _ _).trans hk
    | ⟨1, _⟩ => exact rhs_w_1 _ _)
  rw [el, er]

/-- Rows against a square projection: the left operand's second axis against the right operand's first, 1024 terms. -/
theorem lhs_p_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_p_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_p_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_p_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul_p_apply {φ₁ φ₂ : FTy} (prec : Option ContractPrecision) (lhs : FVec Ideal S512x1024 φ₁) (rhs : FVec Ideal S1024x1024 φ₂)
    (t : Fin 512) (j : Fin 1024) :
    matmul dot_S512x1024_S1024x1024_S512x1024_1_0_0_1_n_n prec lhs rhs (constant (F := Ideal) S512x1024 .f32 0x00000000#32) (ix2 t j)
      = ∑ k : Fin 1024, lhs (ix2 t k) * rhs (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 t j) ((contrEquiv1 dot_S512x1024_S1024x1024_S512x1024_1_0_0_1_n_n 1024 rfl rfl).symm k) = ix2 t k := funext fun a => Fin.ext (by
    match a with
    | ⟨0, _⟩ => exact lhs_p_0 _ _
    | ⟨1, _⟩ => exact (lhs_p_1 _ _).trans hk)
  have er : dot_S512x1024_S1024x1024_S512x1024_1_0_0_1_n_n.rhsIdx (ix2 t j) ((contrEquiv1 dot_S512x1024_S1024x1024_S512x1024_1_0_0_1_n_n 1024 rfl rfl).symm k) = ix2 k j := funext fun a => Fin.ext (by
    match a with
    | ⟨0, _⟩ => exact (rhs_p_0 _ _).trans hk
    | ⟨1, _⟩ => exact rhs_p_1 _ _)
  rw [el, er]

/-! ## The body's values, named -/

/-- A loaded `[1, 512, 1024]` block as 512 rows. -/
def blockRows (v : Vec Ideal S1x512x1024 .f32) : Rows := fun t d => v (ix3 0 t d)

/-- A loaded square projection by its two coordinates. -/
def blockProj (v : Vec Ideal S1024x1024 .bf16) : Proj := fun k j => v (ix2 k j)

variable (v1 : Elt Ideal .i32) (v2 v4 : Vec Ideal S1x512x1024 .f32)

theorem pay1_apply (t : Fin 512) (d : Fin 1024) : k0_pay1 (F := Ideal) v2 (ix2 t d) = blockRows v2 t d :=
  shapeCast_1ab_ab_apply v2 shapeCasts_S1x512x1024_S512x1024 t d

theorem pay2_apply (s : Fin 512) (d : Fin 1024) : k0_pay2 (F := Ideal) v4 (ix2 s d) = blockRows v4 s d :=
  shapeCast_1ab_ab_apply v4 shapeCasts_S1x512x1024_S512x1024 s d

/-- The fill value of the mask denotes `⊥`, by the certificate's table of named constants. -/
theorem neg_big : Named.named (F := Ideal) Cert.KernelIdeal.κ "neg_big" (φ := .f32) 0xFF333332#32 = (⊥ : EReal) :=
  IdealRules.named_const.ideal_named_scalar _ _ _ _ rfl

/-- The scores. -/
def scoresK : FVec Ideal S512x512 .f32 :=
  matmul dot_S512x1024_S512x1024_S512x512_1_1_0_0_n_n (some .fp32) (k0_pay1 (F := Ideal) v2) (k0_pay2 (F := Ideal) v4) (constant (F := Ideal) S512x512 .f32 0x00000000#32)

/-- The scores where the key's position is below the length word, the fill value elsewhere. -/
def maskedK : FVec Ideal S512x512 .f32 :=
  select (cmpi .slt (iota .tc S512x512 32 [1] iota_S512x512_d1_w32) (broadcast S512x512 v1)) (scoresK v2 v4)
    (broadcast S512x512 (Named.named (F := Ideal) κ "neg_big" (φ := .f32) 0xFF333332#32))

/-- The largest masked score of each row. -/
def rowmaxK : FVec Ideal S512 .f32 :=
  multiReduction (F := Ideal) .maximumf [1] S512 (maskedK v1 v2 v4) 0xFF800000#32 reduces_S512x512_S512 (.inl rfl) rfl

/-- The exponentials of the masked scores less their row's maximum. -/
def expK : FVec Ideal S512x512 .f32 :=
  exp (subf (maskedK v1 v2 v4)
    (broadcastTo S512x512 (shapeCast S512x1 (rowmaxK v1 v2 v4) shapeCasts_S512_S512x1) broadcasts_S512x1_S512x512))

/-- Their sum along each row. -/
def denomK : FVec Ideal S512 .f32 :=
  multiReduction (F := Ideal) .add [1] S512 (expK v1 v2 v4) 0x00000000#32 reduces_S512x512_S512 (.inl rfl) rfl

/-- The value stored in the weights' block is the quotient of the two. -/
theorem pay3_eq : k0_pay3 (F := Ideal) v1 v2 v4
    = divf (expK v1 v2 v4)
        (broadcastTo S512x512 (shapeCast S512x1 (denomK v1 v2 v4) shapeCasts_S512_S512x1) broadcasts_S512x1_S512x512) := rfl

/-- The context: the weights against the key rows. -/
def contextK : FVec Ideal S512x1024 .f32 :=
  matmul dot_S512x512_S512x1024_S512x1024_1_0_0_1_n_n (some .fp32) (k0_pay3 (F := Ideal) v1 v2 v4) (k0_pay2 (F := Ideal) v4) (constant (F := Ideal) S512x1024 .f32 0x00000000#32)

/-- The value stored in the output block. -/
theorem pay4_eq (v25 v28 : Vec Ideal S1024x1024 .bf16) : k0_pay4 (F := Ideal) v1 v2 v4 v25 v28
    = tanh (addf
        (matmul (φ₂ := .bf16) dot_S512x1024_S1024x1024_S512x1024_1_0_0_1_n_n none (truncf .bf16 (contextK v1 v2 v4) bitsLt_bf16_f32)
          (shapeCast S1024x1024 v25 shapeCasts_S1024x1024_S1024x1024) (constant (F := Ideal) S512x1024 .f32 0x00000000#32))
        (matmul (φ₂ := .bf16) dot_S512x1024_S1024x1024_S512x1024_1_0_0_1_n_n none (truncf .bf16 (k0_pay1 (F := Ideal) v2) bitsLt_bf16_f32)
          (shapeCast S1024x1024 v28 shapeCasts_S1024x1024_S1024x1024) (constant (F := Ideal) S512x1024 .f32 0x00000000#32))) := rfl

/-! ## The named values at an index -/

theorem scoresK_apply (t s : Fin 512) : scoresK v2 v4 (ix2 t s) = score (blockRows v2) (blockRows v4) t s := by
  unfold scoresK
  rw [matmul_nt_apply]
  show _ = ∑ d : Fin 1024, blockRows v2 t d * blockRows v4 s d
  exact Finset.sum_congr rfl fun k _ => by rw [pay1_apply, pay2_apply]

theorem maskedK_apply (t s : Fin 512) : maskedK v1 v2 v4 (ix2 t s) = masked v1 (blockRows v2) (blockRows v4) t s := by
  show Scalar.select (IntOp.cmpi .slt (iota .tc S512x512 32 [1] iota_S512x512_d1_w32 (ix2 t s)) v1) (scoresK v2 v4 (ix2 t s))
    (Named.named (F := Ideal) κ "neg_big" (φ := .f32) 0xFF333332#32) = _
  rw [iota_single_apply, scoresK_apply, neg_big]
  rfl

/-- Row `t` of a `[512, 512]` array, as the reduction along the keys enumerates it. -/
theorem lift_row (t k : Fin 512) : reduces_S512x512_S512.lift (ix1 t) k = ix2 t k :=
  funext fun a => Fin.ext (by match a with | ⟨0, _⟩ => rfl | ⟨1, _⟩ => rfl)

theorem rowmaxK_apply (t : Fin 512) : rowmaxK v1 v2 v4 (ix1 t) = rowmax v1 (blockRows v2) (blockRows v4) t := by
  refine (Ideal.multiReduction_maximumf_single (maskedK v1 v2 v4) 0xFF800000#32 reduces_S512x512_S512 (.inl rfl) rfl (ix1 t)).trans ?_
  have e : (maskedK v1 v2 v4 ∘ reduces_S512x512_S512.lift (ix1 t))
      = fun s : Fin 512 => masked v1 (blockRows v2) (blockRows v4) t s :=
    funext fun k => (congrArg (maskedK v1 v2 v4) (lift_row t k)).trans (maskedK_apply v1 v2 v4 t k)
  rw [e]
  show Finset.univ.fold max (Ideal.ofBits .f32 0xFF800000#32) _ = _
  rw [ofBits_neg_inf]
  rfl

theorem expK_apply (t s : Fin 512) : expK v1 v2 v4 (ix2 t s) = expo v1 (blockRows v2) (blockRows v4) t s := by
  show Ideal.exp (maskedK v1 v2 v4 (ix2 t s)
    - broadcastTo S512x512 (shapeCast S512x1 (rowmaxK v1 v2 v4) shapeCasts_S512_S512x1) broadcasts_S512x1_S512x512 (ix2 t s)) = _
  rw [maskedK_apply, Cert.Lib.Column.column_apply, rowmaxK_apply]
  rfl

theorem denomK_apply (t : Fin 512) : denomK v1 v2 v4 (ix1 t) = denom v1 (blockRows v2) (blockRows v4) t := by
  refine (Ideal.multiReduction_add_single (expK v1 v2 v4) 0x00000000#32 reduces_S512x512_S512 (.inl rfl) rfl (ix1 t)).trans ?_
  show _ = ∑ s : Fin 512, expo v1 (blockRows v2) (blockRows v4) t s
  exact Finset.sum_congr rfl fun k _ => (congrArg (expK v1 v2 v4) (lift_row t k)).trans (expK_apply v1 v2 v4 t k)

/-- The stored weights at `(t, s)`. -/
theorem pay3_apply (t s : Fin 512) :
    k0_pay3 (F := Ideal) v1 v2 v4 (ix2 t s) = weight v1 (blockRows v2) (blockRows v4) t s := by
  rw [pay3_eq]
  show Ideal.div (expK v1 v2 v4 (ix2 t s))
    (broadcastTo S512x512 (shapeCast S512x1 (denomK v1 v2 v4) shapeCasts_S512_S512x1) broadcasts_S512x1_S512x512 (ix2 t s)) = _
  rw [expK_apply, Cert.Lib.Column.column_apply, denomK_apply]
  rfl

theorem contextK_apply (t : Fin 512) (d : Fin 1024) :
    contextK v1 v2 v4 (ix2 t d) = context v1 (blockRows v2) (blockRows v4) t d := by
  unfold contextK
  rw [matmul_w_apply]
  show _ = ∑ s : Fin 512, weight v1 (blockRows v2) (blockRows v4) t s * blockRows v4 s d
  exact Finset.sum_congr rfl fun k _ => by rw [pay3_apply, pay2_apply]

/-- The stored output at `(t, j)`. -/
theorem pay4_apply (v25 v28 : Vec Ideal S1024x1024 .bf16) (t : Fin 512) (j : Fin 1024) :
    k0_pay4 (F := Ideal) v1 v2 v4 v25 v28 (ix2 t j)
      = mixed v1 (blockRows v2) (blockRows v4) (blockProj v25) (blockProj v28) t j := by
  rw [pay4_eq]
  show Ideal.tanh (matmul (φ₂ := .bf16) dot_S512x1024_S1024x1024_S512x1024_1_0_0_1_n_n none (truncf .bf16 (contextK v1 v2 v4) bitsLt_bf16_f32)
        (shapeCast S1024x1024 v25 shapeCasts_S1024x1024_S1024x1024) (constant (F := Ideal) S512x1024 .f32 0x00000000#32) (ix2 t j)
      + matmul (φ₂ := .bf16) dot_S512x1024_S1024x1024_S512x1024_1_0_0_1_n_n none (truncf .bf16 (k0_pay1 (F := Ideal) v2) bitsLt_bf16_f32)
        (shapeCast S1024x1024 v28 shapeCasts_S1024x1024_S1024x1024) (constant (F := Ideal) S512x1024 .f32 0x00000000#32) (ix2 t j))
    = Ideal.tanh ((∑ k : Fin 1024, context v1 (blockRows v2) (blockRows v4) t k * blockProj v25 k j)
      + ∑ k : Fin 1024, blockRows v2 t k * blockProj v28 k j)
  rw [matmul_p_apply, matmul_p_apply, shapeCast_self, shapeCast_self]
  refine congrArg Ideal.tanh (congrArg₂ (· + ·) (Finset.sum_congr rfl fun k _ => ?_) (Finset.sum_congr rfl fun k _ => ?_))
  · show contextK v1 v2 v4 (ix2 t k) * v25 (ix2 k j) = _
    rw [contextK_apply]; rfl
  · show k0_pay1 (F := Ideal) v2 (ix2 t k) * v28 (ix2 k j) = _
    rw [pay1_apply]; rfl

end Cert.Attn.Ker

end
-- ==== Proof.KerValue.lean ====
/-
  The kernel's two result arrays are the specification's.

  Grid point `t` is batch `t`. Its query and key blocks are rows `t` of the two rank-three inputs; the two projections are
  staged whole at every point; the length word is the table's entry `t`. So the weights' block and the output block the
  point writes back are the specification's weights and mixed output of batch `t`. The blocks of the two flat result
  arrays `[512, 32·512]` and `[512, 32·1024]` are the column ranges `[512 t, 512 (t + 1))` and `[1024 t, 1024 (t + 1))`; they
  tile the arrays, so each array is the specification laid flat, and the reshape after the region splits the flat column
  into (batch, feature). The two projections the region finds are the halves of `W`'s columns transposed (a change of
  float format being the identity).
-/
import proofs.«424579_j5471788335126_2_alg».proof.Proof.Gen.KernelIdeal.Frame
import proofs.«424579_j5471788335126_2_alg».proof.Proof.KerPieces
import proofs.«424579_j5471788335126_2_alg».proof.Proof.KerPayload
import proofs.«424579_j5471788335126_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Attn.KerValue

open Cert.KernelIdeal Cert.KernelIdeal.Gen Cert.Attn Cert.Attn.Ker Cert.Attn.KerPieces
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- No index map reads the table: the pipeline's side condition on it is empty. -/
theorem ok : Ok m := trivial

/-- The batch of a grid point. -/
def batch (t : Fin (cfgM m (ok m)).N) : Fin 32 := ⟨t.val, t.isLt⟩

/-- The printed index maps over the grid: windows 0 and 1 move along the batch axis, windows 2 and 3 stay, windows 4 and 5
    move along the columns; the one grid coordinate of point `t` is `t`. -/
theorem idx_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = t.val ∧ cc0_transform_1 (grid0.coords t) 1 = 0 ∧ cc0_transform_1 (grid0.coords t) 2 = 0
    ∧ cc0_transform_2 (grid0.coords t) 0 = 0 ∧ cc0_transform_2 (grid0.coords t) 1 = 0
    ∧ cc0_transform_3 (grid0.coords t) 0 = 0 ∧ cc0_transform_3 (grid0.coords t) 1 = 0
    ∧ cc0_transform_4 (grid0.coords t) 0 = 0 ∧ cc0_transform_4 (grid0.coords t) 1 = t.val
    ∧ cc0_transform_5 (grid0.coords t) 0 = 0 ∧ cc0_transform_5 (grid0.coords t) 1 = t.val
    ∧ (grid0.coords t 0).val = t.val := by decide +kernel

/-! ## The blocks and the arrays, by their literal types -/

abbrev qblk (c : Dev nD) (t : Fin (cfgM m (ok m)).N) : Vec Ideal S1x512x1024 .f32 := iblk m (ok m) c 0 t
abbrev kblk (c : Dev nD) (t : Fin (cfgM m (ok m)).N) : Vec Ideal S1x512x1024 .f32 := iblk m (ok m) c 1 t
abbrev wcblk (c : Dev nD) (t : Fin (cfgM m (ok m)).N) : Vec Ideal S1024x1024 .bf16 := iblk m (ok m) c 2 t
abbrev wxblk (c : Dev nD) (t : Fin (cfgM m (ok m)).N) : Vec Ideal S1024x1024 .bf16 := iblk m (ok m) c 3 t
abbrev Xarr (c : Dev nD) : Vec Ideal S32x512x1024 .f32 := V m c main_arg0
abbrev Marr (c : Dev nD) : Vec Ideal S32x512x1024 .f32 := V m c main_arg1
abbrev Larr (c : Dev nD) : Vec Ideal S32 .i32 := V m c main_arg2
abbrev Warr (c : Dev nD) : Vec Ideal S1024x2048 .f32 := V m c main_arg3
abbrev Wcarr (c : Dev nD) : Vec Ideal S1024x1024 .bf16 := V m c main_v2
abbrev Wxarr (c : Dev nD) : Vec Ideal S1024x1024 .bf16 := V m c main_v4

/-! ## Each input block, read off its array -/

theorem qblk_rows (c : Dev nD) (t : Fin (cfgM m (ok m)).N) : blockRows (qblk m c t) = rowsOf (Xarr m c) (batch m t) := by
  funext r d
  show V m c main_arg0 ((((cfgM m (ok m)).win 0).blk t).view.emb (ix3 0 r d)) = V m c main_arg0 (ix3 (batch m t) r d)
  obtain ⟨e00, e01, e02, -⟩ := idx_facts t
  refine congrArg (V m c main_arg0) (funext fun a => Fin.ext ?_)
  match a with
  | ⟨0, _⟩ => show cc0_transform_0 (grid0.coords t) 0 * 1 + 1 * 0 = t.val; omega
  | ⟨1, _⟩ => show cc0_transform_0 (grid0.coords t) 1 * 512 + 1 * r.val = r.val; omega
  | ⟨2, _⟩ => show cc0_transform_0 (grid0.coords t) 2 * 1024 + 1 * d.val = d.val; omega

theorem kblk_rows (c : Dev nD) (t : Fin (cfgM m (ok m)).N) : blockRows (kblk m c t) = rowsOf (Marr m c) (batch m t) := by
  funext r d
  show V m c main_arg1 ((((cfgM m (ok m)).win 1).blk t).view.emb (ix3 0 r d)) = V m c main_arg1 (ix3 (batch m t) r d)
  obtain ⟨-, -, -, e10, e11, e12, -⟩ := idx_facts t
  refine congrArg (V m c main_arg1) (funext fun a => Fin.ext ?_)
  match a with
  | ⟨0, _⟩ => show cc0_transform_1 (grid0.coords t) 0 * 1 + 1 * 0 = t.val; omega
  | ⟨1, _⟩ => show cc0_transform_1 (grid0.coords t) 1 * 512 + 1 * r.val = r.val; omega
  | ⟨2, _⟩ => show cc0_transform_1 (grid0.coords t) 2 * 1024 + 1 * d.val = d.val; omega

theorem wcblk_proj (c : Dev nD) (t : Fin (cfgM m (ok m)).N) : blockProj (wcblk m c t) = fun k j => Wcarr m c (ix2 k j) := by
  funext k j
  show V m c main_v2 ((((cfgM m (ok m)).win 2).blk t).view.emb (ix2 k j)) = V m c main_v2 (ix2 k j)
  obtain ⟨-, -, -, -, -, -, e20, e21, -⟩ := idx_facts t
  refine congrArg (V m c main_v2) (funext fun a => Fin.ext ?_)
  match a with
  | ⟨0, _⟩ => show cc0_transform_2 (grid0.coords t) 0 * 1024 + 1 * k.val = k.val; omega
  | ⟨1, _⟩ => show cc0_transform_2 (grid0.coords t) 1 * 1024 + 1 * j.val = j.val; omega

theorem wxblk_proj (c : Dev nD) (t : Fin (cfgM m (ok m)).N) : blockProj (wxblk m c t) = fun k j => Wxarr m c (ix2 k j) := by
  funext k j
  show V m c main_v4 ((((cfgM m (ok m)).win 3).blk t).view.emb (ix2 k j)) = V m c main_v4 (ix2 k j)
  obtain ⟨-, -, -, -, -, -, -, -, e30, e31, -⟩ := idx_facts t
  refine congrArg (V m c main_v4) (funext fun a => Fin.ext ?_)
  match a with
  | ⟨0, _⟩ => show cc0_transform_3 (grid0.coords t) 0 * 1024 + 1 * k.val = k.val; omega
  | ⟨1, _⟩ => show cc0_transform_3 (grid0.coords t) 1 * 1024 + 1 * j.val = j.val; omega

/-! ## The length word -/

/-- The word loaded at grid coordinates `i` is the table's entry at the coordinate. -/
theorem lenWord_eq (c : Dev nD) (xt0 : TbBuf0 (F := Ideal) c tbM0_0) (i : grid0.Coords) (b : Fin 32) (hb : (i 0).val = b.val) :
    lenWord c xt0 i = xt0 (ix1 b) := by
  unfold lenWord
  rw [View.readAt_apply, View.read_apply]
  refine (cast_eq _ _).trans (congrArg xt0 (funext fun a => Fin.ext ?_))
  match a with
  | ⟨0, _⟩ =>
    show k0_off1 i 0 + 1 * 0 = b.val
    rw [k0_off1_eq]
    show (i 0).val + 1 * 0 = b.val
    omega

theorem len_at (c : Dev nD) (t : Fin (cfgM m (ok m)).N) :
    lenWord c (tbl m 0) (grid0.coords t) = Larr m c (ix1 (batch m t)) := by
  obtain rfl : c = 0 := Subsingleton.elim _ _
  exact lenWord_eq 0 (tbl m 0) (grid0.coords t) (batch m t) (idx_facts t).2.2.2.2.2.2.2.2.2.2.2.2.2.2

/-! ## The projections the region finds -/

theorem Wcarr_eq (c : Dev nD) : Wcarr m c
    = transpose S1024x1024 [1, 0] (extractStridedSlice S1024x1024 ![0, 0]
        (truncf (F := Ideal) .bf16 (m ((c : Thread nD τ).loc main_arg3)) bitsLt_bf16_f32) slices_S1024x2048_S1024x1024_0_0)
        transposes_S1024x1024_S1024x1024_1_0 := by
  show StableHlo.after hostOps0 (fun b => m (c, b)) (Proc.devRef .tc main_v2) = _
  after_results

theorem Wxarr_eq (c : Dev nD) : Wxarr m c
    = transpose S1024x1024 [1, 0] (extractStridedSlice S1024x1024 ![0, 1024]
        (truncf (F := Ideal) .bf16 (m ((c : Thread nD τ).loc main_arg3)) bitsLt_bf16_f32) slices_S1024x2048_S1024x1024_0_1024)
        transposes_S1024x1024_S1024x1024_1_0 := by
  show StableHlo.after hostOps0 (fun b => m (c, b)) (Proc.devRef .tc main_v4) = _
  after_results

/-- The first projection is the left half of `W`'s columns, transposed. -/
theorem Wc_proj (c : Dev nD) : (fun k j => Wcarr m c (ix2 k j)) = projLo (m ((c : Thread nD τ).loc main_arg3)) := by
  funext k j
  rw [Wcarr_eq, transpose_ix2_apply, slice2_axis1_apply 0 _ _ j k (Fin.castAdd 1024 k) (by show k.val = 0 + k.val; omega)]
  rfl

/-- The second projection is the right half, transposed. -/
theorem Wx_proj (c : Dev nD) : (fun k j => Wxarr m c (ix2 k j)) = projHi (m ((c : Thread nD τ).loc main_arg3)) := by
  funext k j
  rw [Wxarr_eq, transpose_ix2_apply, slice2_axis1_apply 1024 _ _ j k (Fin.natAdd 1024 k) (by show 1024 + k.val = 1024 + k.val; rfl)]
  rfl

/-! ## What a point writes back -/

theorem outs_weights (c : Dev nD) (t : Fin (cfgM m (ok m)).N) :
    (outsAt0 m (ok m) c t).2 = k0_pay3 (lenWord c (tbl m 0) (grid0.coords t)) (qblk m c t) (kblk m c t) := by
  unfold outsAt0
  dsimp only
  exact out5_eq (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (iblk m (ok m) c 0 t) (iblk m (ok m) c 1 t) (iblk m (ok m) c 2 t) (iblk m (ok m) c 3 t) (tbl m 0)

theorem outs_mixed (c : Dev nD) (t : Fin (cfgM m (ok m)).N) :
    (outsAt0 m (ok m) c t).1
      = k0_pay4 (lenWord c (tbl m 0) (grid0.coords t)) (qblk m c t) (kblk m c t) (wcblk m c t) (wxblk m c t) := by
  unfold outsAt0
  dsimp only
  exact out4_eq (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (iblk m (ok m) c 0 t) (iblk m (ok m) c 1 t) (iblk m (ok m) c 2 t) (iblk m (ok m) c 3 t) (tbl m 0)

/-- The weights' block of point `t` is the specification's weights of batch `t`. -/
theorem weights_at (c : Dev nD) (t : Fin (cfgM m (ok m)).N) (y : S512x512.Idx) :
    (outsAt0 m (ok m) c t).2 y
      = weight (Larr m c (ix1 (batch m t))) (rowsOf (Xarr m c) (batch m t)) (rowsOf (Marr m c) (batch m t)) (y 0) (y 1) := by
  rw [outs_weights]
  obtain ⟨r, s, rfl⟩ : ∃ (r s : Fin 512), y = ix2 r s := ⟨y 0, y 1, eq_ix2 y⟩
  rw [pay3_apply, len_at, qblk_rows, kblk_rows]

/-- The output block of point `t` is the specification's mixed output of batch `t`. -/
theorem mixed_at (c : Dev nD) (t : Fin (cfgM m (ok m)).N) (y : S512x1024.Idx) :
    (outsAt0 m (ok m) c t).1 y
      = mixed (Larr m c (ix1 (batch m t))) (rowsOf (Xarr m c) (batch m t)) (rowsOf (Marr m c) (batch m t))
          (projLo (m ((c : Thread nD τ).loc main_arg3))) (projHi (m ((c : Thread nD τ).loc main_arg3))) (y 0) (y 1) := by
  rw [outs_mixed]
  obtain ⟨r, j, rfl⟩ : ∃ (r : Fin 512) (j : Fin 1024), y = ix2 r j := ⟨y 0, y 1, eq_ix2 y⟩
  rw [pay4_apply, len_at, qblk_rows, kblk_rows, wcblk_proj, wxblk_proj, Wc_proj, Wx_proj]

/-! ## The specification laid flat -/

/-- The batch and the key of a column of the flat weights. -/
def wBatch (k : Fin 16384) : Fin 32 := ⟨k.val / 512, by have := k.isLt; omega⟩
def wKey (k : Fin 16384) : Fin 512 := ⟨k.val % 512, by omega⟩
/-- The batch and the feature of a column of the flat output. -/
def oBatch (k : Fin 32768) : Fin 32 := ⟨k.val / 1024, by have := k.isLt; omega⟩
def oFeat (k : Fin 32768) : Fin 1024 := ⟨k.val % 1024, by omega⟩

section Flat
variable (X M : (⟨3, ![32, 512, 1024]⟩ : Shape).Idx → EReal) (Ln : (⟨1, ![32]⟩ : Shape).Idx → BitVec 32)
  (W : (⟨2, ![1024, 2048]⟩ : Shape).Idx → EReal)

/-- The weights with (batch, key) as one column index. -/
def alignFlat : (⟨2, ![512, 16384]⟩ : Shape).Idx → EReal := fun i => alignOut X M Ln (ix3 (i 0) (wBatch (i 1)) (wKey (i 1)))

/-- The mixed output with (batch, feature) as one column index. -/
def attnFlat : (⟨2, ![512, 32768]⟩ : Shape).Idx → EReal := fun i => attnOut X M Ln W (ix3 (i 0) (oBatch (i 1)) (oFeat (i 1)))

theorem alignFlat_at (i : (⟨2, ![512, 16384]⟩ : Shape).Idx) (b : Fin 32) (r s : Fin 512) (h0 : (i 0).val = r.val)
    (h1 : (i 1).val = b.val * 512 + s.val) : alignFlat X M Ln i = weight (Ln (ix1 b)) (rowsOf X b) (rowsOf M b) r s := by
  have er : i 0 = r := Fin.ext h0
  have eb : wBatch (i 1) = b := Fin.ext (by show (i 1).val / 512 = b.val; have := s.isLt; omega)
  have es : wKey (i 1) = s := Fin.ext (by show (i 1).val % 512 = s.val; have := s.isLt; omega)
  unfold alignFlat
  rw [er, eb, es, alignOut_ix3]

theorem attnFlat_at (i : (⟨2, ![512, 32768]⟩ : Shape).Idx) (b : Fin 32) (r : Fin 512) (j : Fin 1024) (h0 : (i 0).val = r.val)
    (h1 : (i 1).val = b.val * 1024 + j.val) :
    attnFlat X M Ln W i = mixed (Ln (ix1 b)) (rowsOf X b) (rowsOf M b) (projLo W) (projHi W) r j := by
  have er : i 0 = r := Fin.ext h0
  have eb : oBatch (i 1) = b := Fin.ext (by show (i 1).val / 1024 = b.val; have := j.isLt; omega)
  have ej : oFeat (i 1) = j := Fin.ext (by show (i 1).val % 1024 = j.val; have := j.isLt; omega)
  unfold attnFlat
  rw [er, eb, ej, attnOut_ix3]

end Flat

-- From here on the specification is compared only through the lemmas above, never by unfolding its sums.
attribute [local irreducible] weight mixed alignOut attnOut alignFlat attnFlat

/-! ## The blocks written back are the blocks of the flat specification -/

theorem flushed5_eq (c : Dev nD) (t : Fin (cfgM m (ok m)).N) :
    (dats m (ok m) 0 c).flushed 5 t
      = (((cfgM m (ok m)).win 5).blk t).view.read (Elt Ideal) (alignFlat (Xarr m c) (Marr m c) (Larr m c)) := by
  show ((cfgM m (ok m)).win 5).cut (grid0.coords t) ((dats m (ok m) 0 c).after 5 t) = _
  rw [after0_5]
  funext y
  refine Eq.trans ?_ (View.read_apply _ y).symm
  refine Eq.trans ?_ (cast_eq _ _).symm
  refine Eq.trans (weights_at m c t (((cfgM m (ok m)).win 5).xinj (grid0.coords t) y)) ?_
  obtain ⟨-, -, -, -, -, -, -, -, -, -, -, -, e50, e51, -⟩ := idx_facts t
  refine (alignFlat_at _ _ _ _ (batch m t) _ _ ?_ ?_).symm
  · show cc0_transform_5 (grid0.coords t) 0 * 512 + 1 * (@id S512x512.Idx y 0).val = (@id S512x512.Idx y 0).val; omega
  · show cc0_transform_5 (grid0.coords t) 1 * 512 + 1 * (@id S512x512.Idx y 1).val = t.val * 512 + (@id S512x512.Idx y 1).val; omega

theorem flushed4_eq (c : Dev nD) (t : Fin (cfgM m (ok m)).N) :
    (dats m (ok m) 0 c).flushed 4 t
      = (((cfgM m (ok m)).win 4).blk t).view.read (Elt Ideal)
          (attnFlat (Xarr m c) (Marr m c) (Larr m c) (m ((c : Thread nD τ).loc main_arg3))) := by
  show ((cfgM m (ok m)).win 4).cut (grid0.coords t) ((dats m (ok m) 0 c).after 4 t) = _
  rw [after0_4]
  funext y
  refine Eq.trans ?_ (View.read_apply _ y).symm
  refine Eq.trans ?_ (cast_eq _ _).symm
  refine Eq.trans (mixed_at m c t (((cfgM m (ok m)).win 4).xinj (grid0.coords t) y)) ?_
  obtain ⟨-, -, -, -, -, -, -, -, -, -, e40, e41, -⟩ := idx_facts t
  refine (attnFlat_at _ _ _ _ _ (batch m t) _ _ ?_ ?_).symm
  · show cc0_transform_4 (grid0.coords t) 0 * 512 + 1 * (@id S512x1024.Idx y 0).val = (@id S512x1024.Idx y 0).val; omega
  · show cc0_transform_4 (grid0.coords t) 1 * 1024 + 1 * (@id S512x1024.Idx y 1).val = t.val * 1024 + (@id S512x1024.Idx y 1).val; omega

/-! ## The blocks tile the flat arrays -/

theorem mem_blk5 (t : Fin (cfgM m (ok m)).N) (i : S512x16384.Idx) :
    i ∈ (((cfgM m (ok m)).win 5).blk t).view.set
      ↔ ∀ a : Fin 2, ((cfgM m (ok m)).win 5).index t a * S512x512.size a ≤ (i a).val
          ∧ (i a).val < ((cfgM m (ok m)).win 5).index t a * S512x512.size a + S512x512.size a := by
  have h : (((cfgM m (ok m)).win 5).blk t).view.set = (((cfgM m (ok m)).win 5).rect t).set :=
    View.set_slice_whole main_v5_1 (((cfgM m (ok m)).win 5).rect t)
  exact (Iff.of_eq (congrArg (fun S => i ∈ S) h)).trans Rect.mem_set_unit

theorem mem_blk4 (t : Fin (cfgM m (ok m)).N) (i : S512x32768.Idx) :
    i ∈ (((cfgM m (ok m)).win 4).blk t).view.set
      ↔ ∀ a : Fin 2, ((cfgM m (ok m)).win 4).index t a * S512x1024.size a ≤ (i a).val
          ∧ (i a).val < ((cfgM m (ok m)).win 4).index t a * S512x1024.size a + S512x1024.size a := by
  have h : (((cfgM m (ok m)).win 4).blk t).view.set = (((cfgM m (ok m)).win 4).rect t).set :=
    View.set_slice_whole main_v5_0 (((cfgM m (ok m)).win 4).rect t)
  exact (Iff.of_eq (congrArg (fun S => i ∈ S) h)).trans Rect.mem_set_unit

/-- Column `k` of the flat weights lies in the block of point `k / 512`. -/
theorem cover5 (i : S512x16384.Idx) :
    ∃ t : Fin (cfgM m (ok m)).N, ((cfgM m (ok m)).win 5).flush t = true ∧ i ∈ (((cfgM m (ok m)).win 5).blk t).view.set := by
  have hi0 : (i 0).val < 512 := idx2_lt0 i
  have hi1 : (i 1).val < 16384 := idx2_lt1 i
  have ht : (i 1).val / 512 < 32 := by omega
  obtain ⟨-, -, -, -, -, -, -, -, -, -, -, -, e50, e51, -⟩ := idx_facts ⟨(i 1).val / 512, ht⟩
  refine ⟨⟨(i 1).val / 512, ht⟩, flush0_5 (adm m (ok m)) _, (mem_blk5 m _ i).mpr fun a => ?_⟩
  match a with
  | ⟨0, _⟩ =>
    show cc0_transform_5 (grid0.coords ⟨(i 1).val / 512, ht⟩) 0 * 512 ≤ (i 0).val
      ∧ (i 0).val < cc0_transform_5 (grid0.coords ⟨(i 1).val / 512, ht⟩) 0 * 512 + 512
    omega
  | ⟨1, _⟩ =>
    show cc0_transform_5 (grid0.coords ⟨(i 1).val / 512, ht⟩) 1 * 512 ≤ (i 1).val
      ∧ (i 1).val < cc0_transform_5 (grid0.coords ⟨(i 1).val / 512, ht⟩) 1 * 512 + 512
    have e : (⟨(i 1).val / 512, ht⟩ : Fin grid0.N).val = (i 1).val / 512 := rfl
    omega

/-- Column `k` of the flat output lies in the block of point `k / 1024`. -/
theorem cover4 (i : S512x32768.Idx) :
    ∃ t : Fin (cfgM m (ok m)).N, ((cfgM m (ok m)).win 4).flush t = true ∧ i ∈ (((cfgM m (ok m)).win 4).blk t).view.set := by
  have hi0 : (i 0).val < 512 := idx2_lt0 i
  have hi1 : (i 1).val < 32768 := idx2_lt1 i
  have ht : (i 1).val / 1024 < 32 := by omega
  obtain ⟨-, -, -, -, -, -, -, -, -, -, e40, e41, -⟩ := idx_facts ⟨(i 1).val / 1024, ht⟩
  refine ⟨⟨(i 1).val / 1024, ht⟩, flush0_4 (adm m (ok m)) _, (mem_blk4 m _ i).mpr fun a => ?_⟩
  match a with
  | ⟨0, _⟩ =>
    show cc0_transform_4 (grid0.coords ⟨(i 1).val / 1024, ht⟩) 0 * 512 ≤ (i 0).val
      ∧ (i 0).val < cc0_transform_4 (grid0.coords ⟨(i 1).val / 1024, ht⟩) 0 * 512 + 512
    omega
  | ⟨1, _⟩ =>
    show cc0_transform_4 (grid0.coords ⟨(i 1).val / 1024, ht⟩) 1 * 1024 ≤ (i 1).val
      ∧ (i 1).val < cc0_transform_4 (grid0.coords ⟨(i 1).val / 1024, ht⟩) 1 * 1024 + 1024
    have e : (⟨(i 1).val / 1024, ht⟩ : Fin grid0.N).val = (i 1).val / 1024 := rfl
    omega

/-! ## The two flat arrays after the region -/

theorem final5 (c : Dev nD) :
    (dats m (ok m) 0 c).arrAt 5 (cfgM m (ok m)).N = alignFlat (Xarr m c) (Marr m c) (Larr m c) :=
  (dats m (ok m) 0 c).arrAt_eq_of_cover 5 _ (fun t _ => flushed5_eq m c t) (cover5 m)

theorem final4 (c : Dev nD) :
    (dats m (ok m) 0 c).arrAt 4 (cfgM m (ok m)).N
      = attnFlat (Xarr m c) (Marr m c) (Larr m c) (m ((c : Thread nD τ).loc main_arg3)) :=
  (dats m (ok m) 0 c).arrAt_eq_of_cover 4 _ (fun t _ => flushed4_eq m c t) (cover4 m)

/-! ## The reshape after the region splits the flat column -/

section Reshape
variable (X M : (⟨3, ![32, 512, 1024]⟩ : Shape).Idx → EReal) (Ln : (⟨1, ![32]⟩ : Shape).Idx → BitVec 32)
  (W : (⟨2, ![1024, 2048]⟩ : Shape).Idx → EReal)

theorem reshape_align :
    shapeCast S512x32x512 (alignFlat X M Ln) shapeCasts_S512x16384_S512x32x512 = alignOut X M Ln := by
  funext i
  obtain ⟨t, b, s, rfl⟩ : ∃ (t : Fin 512) (b : Fin 32) (s : Fin 512), i = ix3 t b s := ⟨i 0, i 1, i 2, eq_ix3 i⟩
  have hk : b.val * 512 + s.val < 16384 := by have := b.isLt; have := s.isLt; omega
  refine (shapeCast_apply (alignFlat X M Ln) shapeCasts_S512x16384_S512x32x512 (ix3 t b s)
    (ix2 t ⟨b.val * 512 + s.val, hk⟩) ?_).trans ?_
  · rw [Shape.rowMajor_val_two, Shape.rowMajor_val_three]
    show t.val * 16384 + (b.val * 512 + s.val) = (t.val * 32 + b.val) * 512 + s.val
    omega
  · rw [alignFlat_at X M Ln _ b t s rfl rfl, alignOut_ix3]

theorem reshape_attn :
    shapeCast S512x32x1024 (attnFlat X M Ln W) shapeCasts_S512x32768_S512x32x1024 = attnOut X M Ln W := by
  funext i
  obtain ⟨t, b, j, rfl⟩ : ∃ (t : Fin 512) (b : Fin 32) (j : Fin 1024), i = ix3 t b j := ⟨i 0, i 1, i 2, eq_ix3 i⟩
  have hk : b.val * 1024 + j.val < 32768 := by have := b.isLt; have := j.isLt; omega
  refine (shapeCast_apply (attnFlat X M Ln W) shapeCasts_S512x32768_S512x32x1024 (ix3 t b j)
    (ix2 t ⟨b.val * 1024 + j.val, hk⟩) ?_).trans ?_
  · rw [Shape.rowMajor_val_two, Shape.rowMajor_val_three]
    show t.val * 32768 + (b.val * 1024 + j.val) = (t.val * 32 + b.val) * 1024 + j.val
    omega
  · rw [attnFlat_at X M Ln W _ b t j rfl rfl, attnOut_ix3]

end Reshape

/-! ## The lines after the region -/

theorem tail_v7 (c : Dev nD) :
    Pipeline.afterTail pcfgs (fun _ => adm m (ok m)) (dats m (ok m)) 0 (V0 m) [hostOps1] c main_v7
      = alignOut (Xarr m c) (Marr m c) (Larr m c) := by
  unfold Pipeline.afterTail
  show StableHlo.after hostOps1 _ (Proc.devRef .tc main_v7) = _
  after_results
  refine Eq.trans ?_ (reshape_align (Xarr m c) (Marr m c) (Larr m c))
  exact congrArg (fun z => shapeCast S512x32x512 z shapeCasts_S512x16384_S512x32x512)
    ((Pipeline.withArrays_arr spec0 winFacts0.arr_inj c _ _ 5).trans (final5 m c))

theorem tail_v6 (c : Dev nD) :
    Pipeline.afterTail pcfgs (fun _ => adm m (ok m)) (dats m (ok m)) 0 (V0 m) [hostOps1] c main_v6
      = attnOut (Xarr m c) (Marr m c) (Larr m c) (m ((c : Thread nD τ).loc main_arg3)) := by
  unfold Pipeline.afterTail
  show StableHlo.after hostOps1 _ (Proc.devRef .tc main_v6) = _
  after_results
  refine Eq.trans ?_ (reshape_attn (Xarr m c) (Marr m c) (Larr m c) (m ((c : Thread nD τ).loc main_arg3)))
  exact congrArg (fun z => shapeCast S512x32x1024 z shapeCasts_S512x32768_S512x32x1024)
    ((Pipeline.withArrays_arr spec0 winFacts0.arr_inj c _ _ 4).trans (final4 m c))

/-! ## The run, read -/

theorem Xarr_eq (c : Dev nD) : Xarr m c = m ((c : Thread nD τ).loc main_arg0) := V_main_arg0 m c
theorem Marr_eq (c : Dev nD) : Marr m c = m ((c : Thread nD τ).loc main_arg1) := V_main_arg1 m c
theorem Larr_eq (c : Dev nD) : Larr m c = m ((c : Thread nD τ).loc main_arg2) := V_main_arg2 m c

/-- Every weakly fair execution of the kernel's program ends with the two results at the specification of the argument
    arrays, and the arguments unchanged. -/
theorem run : θ_run defs (onTc (τ := τ) (main (F := Ideal))) ⟨m, fun _ => 0, ρ⟩ (fun r => ∀ c : Dev nD,
      r.2.mem ((c.tc : Thread nD τ).loc main_v6)
        = attnOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v7)
        = alignOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h c).2 main_v6 (by decide : main_v6 ∈ Pipeline.restRefs sig spec0)).trans
        ((tail_v6 m c).trans (by rw [Xarr_eq, Marr_eq, Larr_eq])),
      ((h c).2 main_v7 (by decide : main_v7 ∈ Pipeline.restRefs sig spec0)).trans
        ((tail_v7 m c).trans (by rw [Xarr_eq, Marr_eq, Larr_eq])),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (W_main_arg2 m (ok m) (dats m (ok m)) c),
      ((h c).2 main_arg3 (by decide : main_arg3 ∈ Pipeline.restRefs sig spec0)).trans (W_main_arg3 m (ok m) (dats m (ok m)) c)⟩)
    (run_main m ρ (ok m))

end Cert.Attn.KerValue

end
-- ==== Proof.lean ====
/-
  A dot-product attention head with a key-length mask: the kernel against its reference, over the extended reals.

  Both programs compute, for each of 32 batches, the scores of 512 queries against 512 keys, mask the keys at or
  past the batch's length with `-∞`, take the softmax of each row (shifted by the row's maximum), form the context as
  the weighted sum of the key rows, and return `tanh` of the context and the query through a linear layer `W`, together
  with the attention weights; both results laid out (query, batch, ·).

  The kernel does one batch per grid point and writes column blocks of two flat arrays, which a reshape then splits;
  the reference works on all batches at once and transposes. The kernel applies `W` as two square products (the left
  half of `W`'s columns against the context, the right half against the query) where the reference joins context and
  query and contracts all 2048 columns: a finite sum split in two, which needs only that `+` on the extended reals is
  commutative and associative. The kernel's mask fill value is a named constant denoting `⊥`, the reference's is the
  pattern of `-∞`; the reference's additional `max` with `-∞` is the identity. Nothing here needs the inputs to be
  finite, and nothing is asked of the integer lengths: both programs apply the same functions to them.

  `Spec.lean` states the common function; `RefSide.lean` reads the reference's stages as it; `KerPayload.lean`,
  `KerPieces.lean` and `KerValue.lean` read the kernel's blocks and arrays as it.
-/
import proofs.«424579_j5471788335126_2_alg».proof.Defs
import proofs.«424579_j5471788335126_2_alg».proof.Proof.Gen.Kernel
import proofs.«424579_j5471788335126_2_alg».proof.Proof.Gen.Kernel.Skeleton
import proofs.«424579_j5471788335126_2_alg».proof.Proof.Gen.Kernel.Launch
import proofs.«424579_j5471788335126_2_alg».proof.Proof.Gen.Kernel.Points
import proofs.«424579_j5471788335126_2_alg».proof.Proof.Gen.Kernel.Frame
import proofs.«424579_j5471788335126_2_alg».proof.Proof.Gen.KernelIdeal
import proofs.«424579_j5471788335126_2_alg».proof.Proof.Gen.KernelIdeal.Skeleton
import proofs.«424579_j5471788335126_2_alg».proof.Proof.Gen.KernelIdeal.Launch
import proofs.«424579_j5471788335126_2_alg».proof.Proof.Gen.KernelIdeal.Points
import proofs.«424579_j5471788335126_2_alg».proof.Proof.Gen.KernelIdeal.Frame
import proofs.«424579_j5471788335126_2_alg».proof.Proof.Gen.ReferenceIdeal
import proofs.«424579_j5471788335126_2_alg».proof.Proof.Gen.Pre_finite_inputs
import proofs.«424579_j5471788335126_2_alg».proof.Proof.RefRun
import proofs.«424579_j5471788335126_2_alg».proof.Proof.RefRead
import proofs.«424579_j5471788335126_2_alg».proof.Proof.RefSide
import proofs.«424579_j5471788335126_2_alg».proof.Proof.KerValue
import Idealize.ShloMosaic.Adequacy
import Idealize.ShloMosaic.Init

noncomputable section

namespace Cert.Proof

open Idealize.ShloMosaic Idealize.SL.Sem

/-- The word-level kernel runs and keeps its arguments: no index map reads the prefetched table, so the pipeline's side
    condition on it is empty. -/
theorem frame_k : Cert.frame_Kernel := fun m ρ _ => Cert.Kernel.Gen.frame m ρ trivial

/-- The same of the idealized kernel. -/
theorem frame_ki : Cert.frame_KernelIdeal := fun m ρ _ => Cert.KernelIdeal.Gen.frame m ρ trivial

/-- The reference's run keeps its arguments. -/
theorem frame_ri : Cert.frame_ReferenceIdeal := fun m ρ _ =>
  (θ_run Cert.ReferenceIdeal.defs _ _).mono (fun _ h c => (h c).2.2) (Cert.ReferenceIdeal.ValueP.run (F := Ideal) m ρ)

/-- The one rewrite of the idealization: the mask's fill value is named, and the name denotes `⊥`. -/
theorem preserves : Cert.preserves_Kernel_KernelIdeal :=
  IdealRules.named_const.statement Cert.KernelIdeal.κ "neg_big" .f32 0xFF333332#32 ⊥ rfl

/-- Both programs end with the specification's two arrays of the (agreeing) arguments. -/
theorem algebraic : Cert.algebraic_KernelIdeal_ReferenceIdeal := by
  intro m ρ m' ρ' _ hagree
  refine ⟨_, _, Cert.Attn.KerValue.run m ρ, ?_⟩
  refine (θ_run Cert.ReferenceIdeal.defs _ _).mono (fun _ h c => ⟨?_, ?_, (h c).2.2⟩)
    (Cert.ReferenceIdeal.ValueP.run (F := Ideal) m' ρ')
  · refine ((h c).1).trans ((Cert.ReferenceIdeal.ReadP.val_main_v24_eq m' c).trans ((Cert.Attn.Ref.out0_eq _ _ _ _).trans ?_))
    rw [(hagree c).1, (hagree c).2.1, (hagree c).2.2.1, (hagree c).2.2.2]
  · refine ((h c).2.1).trans ((Cert.ReferenceIdeal.ReadP.val_main_v25_eq _ _ _).trans ((Cert.Attn.Ref.out1_eq _ _ _).trans ?_))
    rw [(hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
